-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1536 : Shape := ⟨3, ![32, 2048, 1536]⟩
abbrev S32 : Shape := ⟨1, ![32]⟩
abbrev S2x32 : Shape := ⟨2, ![2, 32]⟩
abbrev S_ : Shape := ⟨0, ![]⟩

class Facts : Prop where
  bcast_S_S32x2048x1536 : S_.BroadcastsInDim S32x2048x1536 (![] : Fin 0 → Fin S32x2048x1536.rank)
  reducesTo_S32x2048x1536_S_d0_1_2 : S32x2048x1536.ReducesTo [0, 1, 2] S_
  h_S_ : 0 < S_.numel
  bcast_S_S2x32 : S_.BroadcastsInDim S2x32 (![] : Fin 0 → Fin S2x32.rank)
  reducesTo_S2x32_S_d0_1 : S2x32.ReducesTo [0, 1] S_

variable [Facts]

def fn_part1 {F : FTy → Type} [FloatOps F] (main_arg5 : FVec F S2x32 .f32) (main_v13 : IVec S_ 1) (main_v16 : IVec S2x32 1) : IVec S_ 1 :=
  let main_c_5 : IVec S_ 1 := constantI S_ 1 1#1
  let main_v17 : IVec S_ 1 := (fun x v => Host.reduce IntOp.andi x v reducesTo_S2x32_S_d0_1 h_S_) main_v16 main_c_5
  let main_v18 : IVec S_ 1 := andi main_v13 main_v17
  let main_v19 : FVec F S2x32 .f32 := Host.absf main_arg5
  let main_cst_6 : FVec F S_ .f32 := constant S_ .f32 0x7F800000#32
  let main_v20 : FVec F S2x32 .f32 := broadcastInDim S2x32 ![] bcast_S_S2x32 main_cst_6
  let main_v21 : IVec S2x32 1 := cmpf .olt main_v19 main_v20
  let main_c_7 : IVec S_ 1 := constantI S_ 1 1#1
  let main_v22 : IVec S_ 1 := (fun x v => Host.reduce IntOp.andi x v reducesTo_S2x32_S_d0_1 h_S_) main_v21 main_c_7
  let main_v23 : IVec S_ 1 := andi main_v18 main_v22
  main_v23

def fn {F : FTy → Type} [FloatOps F] (main_arg0 : FVec F S32x2048x1536 .f32) (main_arg1 : IVec S32 32) (main_arg2 : FVec F S2x32 .f32) (main_arg3 : FVec F S2x32 .f32) (main_arg4 : FVec F S2x32 .f32) (main_arg5 : FVec F S2x32 .f32) : IVec S_ 1 :=
  let main_v0 : FVec F S32x2048x1536 .f32 := Host.absf main_arg0
  let main_cst : FVec F S_ .f32 := constant S_ .f32 0x7F800000#32
  let main_v1 : FVec F S32x2048x1536 .f32 := broadcastInDim S32x2048x1536 ![] bcast_S_S32x2048x1536 main_cst
  let main_v2 : IVec S32x2048x1536 1 := cmpf .olt main_v0 main_v1
  let main_c : IVec S_ 1 := constantI S_ 1 1#1
  let main_v3 : IVec S_ 1 := (fun x v => Host.reduce IntOp.andi x v reducesTo_S32x2048x1536_S_d0_1_2 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S2x32 .f32 := Host.absf main_arg3
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  let main_c_3 : IVec S_ 1 := constantI S_ 1 1#1
  let main_v12 : IVec S_ 1 := (fun x v => Host.reduce IntOp.andi x v reducesTo_S2x32_S_d0_1 h_S_) main_v11 main_c_3
  let main_v13 : IVec S_ 1 := andi main_v8 main_v12
  let main_v14 : FVec F S2x32 .f32 := Host.absf main_arg4
  let main_cst_4 : FVec F S_ .f32 := constant S_ .f32 0x7F800000#32
  let main_v15 : FVec F S2x32 .f32 := broadcastInDim S2x32 ![] bcast_S_S2x32 main_cst_4
  let main_v16 : IVec S2x32 1 := cmpf .olt main_v14 main_v15
  fn_part1 (F := F) main_arg5 main_v13 main_v16
-- ==== Kernel.lean ====
abbrev S32x2048x1536 : Shape := ⟨3, ![32, 2048, 1536]⟩
abbrev S32 : Shape := ⟨1, ![32]⟩
abbrev S2x32 : Shape := ⟨2, ![2, 32]⟩
abbrev S_ : Shape := ⟨0, ![]⟩
abbrev S1x32 : Shape := ⟨2, ![1, 32]⟩
abbrev S2048 : Shape := ⟨1, ![2048]⟩
abbrev S1x1x2048 : Shape := ⟨3, ![1, 1, 2048]⟩
abbrev S2x32x1 : Shape := ⟨3, ![2, 32, 1]⟩
abbrev S2x32x2048 : Shape := ⟨3, ![2, 32, 2048]⟩
abbrev S32x2048 : Shape := ⟨2, ![32, 2048]⟩
abbrev S1280 : Shape := ⟨1, ![1280]⟩
abbrev S1x1x1280 : Shape := ⟨3, ![1, 1, 1280]⟩
abbrev S2x32x1280 : Shape := ⟨3, ![2, 32, 1280]⟩
abbrev S32x1280 : Shape := ⟨2, ![32, 1280]⟩
abbrev S8x128x1536 : Shape := ⟨3, ![8, 128, 1536]⟩
abbrev S8x128 : Shape := ⟨2, ![8, 128]⟩
abbrev S8x1280 : Shape := ⟨2, ![8, 1280]⟩
abbrev S8x128x1 : Shape := ⟨3, ![8, 128, 1]⟩
abbrev S8x1x1280 : Shape := ⟨3, ![8, 1, 1280]⟩
abbrev S8x128x1280 : Shape := ⟨3, ![8, 128, 1280]⟩
abbrev S8x128x256 : Shape := ⟨3, ![8, 128, 256]⟩

abbrev nBuf : Space → Nat
  | .hbm => 92
  | .vmem => 8
  | .smem => 0
  | _ => 0

abbrev bufTy : (tb : Table) → Fin (tcTables nBuf tb) → BufTy
  | .hbm, ⟨0, _⟩ => ⟨S32x2048x1536, .f32⟩
  | .hbm, ⟨1, _⟩ => ⟨S32, .i32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S1x32, .f32⟩
  | .hbm, ⟨12, _⟩ => ⟨S_, .f32⟩
  | .hbm, ⟨13, _⟩ => ⟨S1x32, .f32⟩
  | .hbm, ⟨14, _⟩ => ⟨S1x32, .f32⟩
  | .hbm, ⟨15, _⟩ => ⟨S2x32, .f32⟩
  | .hbm, ⟨16, _⟩ => ⟨S2x32, .f32⟩
  | .hbm, ⟨17, _⟩ => ⟨S2x32, .f32⟩
  | .hbm, ⟨18, _⟩ => ⟨S2x32, .i32⟩
  | .hbm, ⟨19, _⟩ => ⟨S1x32, .i32⟩
  | .hbm, ⟨20, _⟩ => ⟨S2x32, .i32⟩
  | .hbm, ⟨21, _⟩ => ⟨S2x32, .i32⟩
  | .hbm, ⟨22, _⟩ => ⟨S_, .i32⟩
  | .hbm, ⟨23, _⟩ => ⟨S2x32, .i32⟩
  | .hbm, ⟨24, _⟩ => ⟨S2x32, .i1⟩
  | .hbm, ⟨25, _⟩ => ⟨S2x32, .f32⟩
  | .hbm, ⟨26, _⟩ => ⟨S_, .f32⟩
  | .hbm, ⟨27, _⟩ => ⟨S2x32, .f32⟩
  | .hbm, ⟨28, _⟩ => ⟨S2x32, .f32⟩
  | .hbm, ⟨29, _⟩ => ⟨S2x32, .f32⟩
  | .hbm, ⟨30, _⟩ => ⟨S2x32, .f32⟩
  | .hbm, ⟨31, _⟩ => ⟨S2x32, .i32⟩
  | .hbm, ⟨32, _⟩ => ⟨S_, .i32⟩
  | .hbm, ⟨33, _⟩ => ⟨S_, .i32⟩
  | .hbm, ⟨34, _⟩ => ⟨S2x32, .i32⟩
  | .hbm, ⟨35, _⟩ => ⟨S2x32, .i32⟩
  | .hbm, ⟨36, _⟩ => ⟨S2048, .i32⟩
  | .hbm, ⟨37, _⟩ => ⟨S1x1x2048, .i32⟩
  | .hbm, ⟨38, _⟩ => ⟨S2x32x1, .i32⟩
  | .hbm, ⟨39, _⟩ => ⟨S2x32x2048, .i32⟩
  | .hbm, ⟨40, _⟩ => ⟨S2x32x2048, .i32⟩
  | .hbm, ⟨41, _⟩ => ⟨S2x32x2048, .i1⟩
  | .hbm, ⟨42, _⟩ => ⟨S2x32, .i32⟩
  | .hbm, ⟨43, _⟩ => ⟨S2x32x1, .i32⟩
  | .hbm, ⟨44, _⟩ => ⟨S2x32x2048, .i32⟩
  | .hbm, ⟨45, _⟩ => ⟨S2x32x2048, .i32⟩
  | .hbm, ⟨46, _⟩ => ⟨S2x32x2048, .i1⟩
  | .hbm, ⟨47, _⟩ => ⟨S2x32x2048, .i1⟩
  | .hbm, ⟨48, _⟩ => ⟨S_, .i1⟩
  | .hbm, ⟨49, _⟩ => ⟨S32x2048, .i1⟩
  | .hbm, ⟨50, _⟩ => ⟨S_, .f32⟩
  | .hbm, ⟨51, _⟩ => ⟨S2x32, .f32⟩
  | .hbm, ⟨52, _⟩ => ⟨S2x32, .f32⟩
  | .hbm, ⟨53, _⟩ => ⟨S2x32, .f32⟩
  | .hbm, ⟨54, _⟩ => ⟨S2x32, .i32⟩
  | .hbm, ⟨55, _⟩ => ⟨S_, .i32⟩
  | .hbm, ⟨56, _⟩ => ⟨S2x32, .i32⟩
  | .hbm, ⟨57, _⟩ => ⟨S2x32, .i32⟩
  | .hbm, ⟨58, _⟩ => ⟨S_, .i32⟩
  | .hbm, ⟨59, _⟩ => ⟨S_, .i32⟩
  | .hbm, ⟨60, _⟩ => ⟨S2x32, .i32⟩
  | .hbm, ⟨61, _⟩ => ⟨S2x32, .i32⟩
  | .hbm, ⟨62, _⟩ => ⟨S2x32, .f32⟩
  | .hbm, ⟨63, _⟩ => ⟨S_, .f32⟩
  | .hbm, ⟨64, _⟩ => ⟨S2x32, .f32⟩
  | .hbm, ⟨65, _⟩ => ⟨S2x32, .f32⟩
  | .hbm, ⟨66, _⟩ => ⟨S2x32, .f32⟩
  | .hbm, ⟨67, _⟩ => ⟨S2x32, .f32⟩
  | .hbm, ⟨68, _⟩ => ⟨S2x32, .i32⟩
  | .hbm, ⟨69, _⟩ => ⟨S1280, .i32⟩
  | .hbm, ⟨70, _⟩ => ⟨S1x1x1280, .i32⟩
  | .hbm, ⟨71, _⟩ => ⟨S2x32x1, .i32⟩
  | .hbm, ⟨72, _⟩ => ⟨S2x32x1280, .i32⟩
  | .hbm, ⟨73, _⟩ => ⟨S2x32x1280, .i32⟩
  | .hbm, ⟨74, _⟩ => ⟨S2x32x1280, .i1⟩
  | .hbm, ⟨75, _⟩ => ⟨S2x32, .i32⟩
  | .hbm, ⟨76, _⟩ => ⟨S2x32x1, .i32⟩
  | .hbm, ⟨77, _⟩ => ⟨S2x32x1280, .i32⟩
  | .hbm, ⟨78, _⟩ => ⟨S2x32x1280, .i32⟩
  | .hbm, ⟨79, _⟩ => ⟨S2x32x1280, .i1⟩
  | .hbm, ⟨80, _⟩ => ⟨S2x32x1280, .i1⟩
  | .hbm, ⟨81, _⟩ => ⟨S_, .i1⟩
  | .hbm, ⟨82, _⟩ => ⟨S32x1280, .i1⟩
  | .hbm, ⟨83, _⟩ => ⟨S32x2048, .f32⟩
  | .hbm, ⟨84, _⟩ => ⟨S_, .f32⟩
  | .hbm, ⟨85, _⟩ => ⟨S32x2048, .f32⟩
  | .hbm, ⟨86, _⟩ => ⟨S32x2048, .f32⟩
  | .hbm, ⟨87, _⟩ => ⟨S32x1280, .f32⟩
  | .hbm, ⟨88, _⟩ => ⟨S_, .f32⟩
  | .hbm, ⟨89, _⟩ => ⟨S32x1280, .f32⟩
  | .hbm, ⟨90, _⟩ => ⟨S32x1280, .f32⟩
  | .hbm, ⟨91, _⟩ => ⟨S32x2048x1536, .f32⟩
  | .local _ .vmem, ⟨0, _⟩ => ⟨S8x128x1536, .f32⟩
  | .local _ .vmem, ⟨1, _⟩ => ⟨S8x128x1536, .f32⟩
  | .local _ .vmem, ⟨2, _⟩ => ⟨S8x128, .f32⟩
  | .local _ .vmem, ⟨3, _⟩ => ⟨S8x128, .f32⟩
  | .local _ .vmem, ⟨4, _⟩ => ⟨S8x1280, .f32⟩
  | .local _ .vmem, ⟨5, _⟩ => ⟨S8x1280, .f32⟩
  | .local _ .vmem, ⟨6, _⟩ => ⟨S8x128x1536, .f32⟩
  | .local _ .vmem, ⟨7, _⟩ => ⟨S8x128x1536, .f32⟩
  | _, _ => ⟨S32x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_3 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_call1_v0 : Ref sig .tc := ⟨.hbm, 59, rfl⟩
abbrev main_call1_v1 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_8 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S2x32_0_1 : S1x32.BroadcastsInDim S2x32 (![0, 1] : Fin 2 → Fin S2x32.rank)
  bcast_S_S2x32 : S_.BroadcastsInDim S2x32 (![] : Fin 0 → Fin S2x32.rank)
  bcast_S2048_S1x1x2048_2 : S2048.BroadcastsInDim S1x1x2048 (![2] : Fin 1 → Fin S1x1x2048.rank)
  bcast_S2x32_S2x32x1_0_1 : S2x32.BroadcastsInDim S2x32x1 (![0, 1] : Fin 2 → Fin S2x32x1.rank)
  bcast_S1x1x2048_S2x32x2048_0_1_2 : S1x1x2048.BroadcastsInDim S2x32x2048 (![0, 1, 2] : Fin 3 → Fin S2x32x2048.rank)
  bcast_S2x32x1_S2x32x2048_0_1_2 : S2x32x1.BroadcastsInDim S2x32x2048 (![0, 1, 2] : Fin 3 → Fin S2x32x2048.rank)
  reducesTo_S2x32x2048_S32x2048_d0 : S2x32x2048.ReducesTo [0] S32x2048
  h_S_ : 0 < S_.numel
  bcast_S1280_S1x1x1280_2 : S1280.BroadcastsInDim S1x1x1280 (![2] : Fin 1 → Fin S1x1x1280.rank)
  bcast_S1x1x1280_S2x32x1280_0_1_2 : S1x1x1280.BroadcastsInDim S2x32x1280 (![0, 1, 2] : Fin 3 → Fin S2x32x1280.rank)
  bcast_S2x32x1_S2x32x1280_0_1_2 : S2x32x1.BroadcastsInDim S2x32x1280 (![0, 1, 2] : Fin 3 → Fin S2x32x1280.rank)
  reducesTo_S2x32x1280_S32x1280_d0 : S2x32x1280.ReducesTo [0] S32x1280
  bcast_S_S32x2048 : S_.BroadcastsInDim S32x2048 (![] : Fin 0 → Fin S32x2048.rank)
  bcast_S_S32x1280 : S_.BroadcastsInDim S32x1280 (![] : Fin 0 → Fin S32x1280.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1280_S8x1280_0_0 : ∀ a, (![0, 0] : Fin 2 → Nat) a + S8x1280.size a ≤ S8x1280.size a
  h_S8x1280 : 0 < S8x1280.numel
  shapeCasts_S8x1280_S8x1280 : S8x1280.ShapeCasts S8x1280
  shapeCasts_S8x128_S8x128x1 : S8x128.ShapeCasts S8x128x1
  shapeCasts_S8x1280_S8x1x1280 : S8x1280.ShapeCasts S8x1x1280
  broadcasts_S8x128x1_S8x128x1280 : S8x128x1.Broadcasts S8x128x1280
  broadcasts_S8x1x1280_S8x128x1280 : S8x1x1280.Broadcasts S8x128x1280
  inb_S8x128x1536_S8x128x256_0_0_0 : ∀ a, (![0, 0, 0] : Fin 3 → Nat) a + S8x128x256.size a ≤ S8x128x1536.size a
  h_S8x128x256 : 0 < S8x128x256.numel
  inb_S8x128x1536_S8x128x1280_0_0_256 : ∀ a, (![0, 0, 256] : Fin 3 → Nat) a + S8x128x1280.size a ≤ S8x128x1536.size a
  h_S8x128x1280 : 0 < S8x128x1280.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1536.size a ≤ S32x2048x1536.size a
  hwx0_0 : ∀ i : grid0.Coords, EltTy.bits .f32 = 32 ∨ (Rect.block (s := S32x2048x1536) S8x128x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x2048.size a
  hwx0_1 : ∀ i : grid0.Coords, EltTy.bits .f32 = 32 ∨ (Rect.block (s := S32x2048) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1280.size a ≤ S32x1280.size a
  hwx0_2 : ∀ i : grid0.Coords, EltTy.bits .f32 = 32 ∨ (Rect.block (s := S32x1280) S8x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x1536.size a ≤ S32x2048x1536.size a
  hwx0_3 : ∀ i : grid0.Coords, EltTy.bits .f32 = 32 ∨ (Rect.block (s := S32x2048x1536) S8x128x1536.size (cc0_transform_3 i) (hinb0_3 i)).WholeWords (EltTy.packing .f32)

variable [Facts₀]

abbrev win0_0 : Pipeline.Window sig grid0 :=
  Pipeline.Window.ofSpec (Memref.whole main_arg0) S8x128x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S8x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v68) S8x128x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x1536 : Shape := ⟨3, ![32, 2048, 1536]⟩
abbrev S32 : Shape := ⟨1, ![32]⟩
abbrev S2x32 : Shape := ⟨2, ![2, 32]⟩
abbrev S32x2048x256 : Shape := ⟨3, ![32, 2048, 256]⟩
abbrev S32x2048x1280 : Shape := ⟨3, ![32, 2048, 1280]⟩
abbrev S_ : Shape := ⟨0, ![]⟩
abbrev S1x32 : Shape := ⟨2, ![1, 32]⟩
abbrev S2048 : Shape := ⟨1, ![2048]⟩
abbrev S1x1x2048 : Shape := ⟨3, ![1, 1, 2048]⟩
abbrev S2x32x1 : Shape := ⟨3, ![2, 32, 1]⟩
abbrev S2x32x2048 : Shape := ⟨3, ![2, 32, 2048]⟩
abbrev S32x2048 : Shape := ⟨2, ![32, 2048]⟩
abbrev S1280 : Shape := ⟨1, ![1280]⟩
abbrev S1x1x1280 : Shape := ⟨3, ![1, 1, 1280]⟩
abbrev S2x32x1280 : Shape := ⟨3, ![2, 32, 1280]⟩
abbrev S32x1280 : Shape := ⟨2, ![32, 1280]⟩
abbrev S32x2048x1 : Shape := ⟨3, ![32, 2048, 1]⟩
abbrev S32x1x1280 : Shape := ⟨3, ![32, 1, 1280]⟩

abbrev nBuf : Space → Nat
  | .hbm => 94
  | .vmem => 0
  | .smem => 0
  | _ => 0

abbrev bufTy : (tb : Table) → Fin (tcTables nBuf tb) → BufTy
  | .hbm, ⟨0, _⟩ => ⟨S32x2048x1536, .f32⟩
  | .hbm, ⟨1, _⟩ => ⟨S32, .i32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S32x2048x256, .f32⟩
  | .hbm, ⟨7, _⟩ => ⟨S32x2048x1280, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S1x32, .f32⟩
  | .hbm, ⟨14, _⟩ => ⟨S_, .f32⟩
  | .hbm, ⟨15, _⟩ => ⟨S1x32, .f32⟩
  | .hbm, ⟨16, _⟩ => ⟨S1x32, .f32⟩
  | .hbm, ⟨17, _⟩ => ⟨S2x32, .f32⟩
  | .hbm, ⟨18, _⟩ => ⟨S2x32, .f32⟩
  | .hbm, ⟨19, _⟩ => ⟨S2x32, .f32⟩
  | .hbm, ⟨20, _⟩ => ⟨S2x32, .i32⟩
  | .hbm, ⟨21, _⟩ => ⟨S1x32, .i32⟩
  | .hbm, ⟨22, _⟩ => ⟨S2x32, .i32⟩
  | .hbm, ⟨23, _⟩ => ⟨S2x32, .i32⟩
  | .hbm, ⟨24, _⟩ => ⟨S_, .i32⟩
  | .hbm, ⟨25, _⟩ => ⟨S2x32, .i32⟩
  | .hbm, ⟨26, _⟩ => ⟨S2x32, .i1⟩
  | .hbm, ⟨27, _⟩ => ⟨S2x32, .f32⟩
  | .hbm, ⟨28, _⟩ => ⟨S_, .f32⟩
  | .hbm, ⟨29, _⟩ => ⟨S2x32, .f32⟩
  | .hbm, ⟨30, _⟩ => ⟨S2x32, .f32⟩
  | .hbm, ⟨31, _⟩ => ⟨S2x32, .f32⟩
  | .hbm, ⟨32, _⟩ => ⟨S2x32, .f32⟩
  | .hbm, ⟨33, _⟩ => ⟨S2x32, .i32⟩
  | .hbm, ⟨34, _⟩ => ⟨S_, .i32⟩
  | .hbm, ⟨35, _⟩ => ⟨S_, .i32⟩
  | .hbm, ⟨36, _⟩ => ⟨S2x32, .i32⟩
  | .hbm, ⟨37, _⟩ => ⟨S2x32, .i32⟩
  | .hbm, ⟨38, _⟩ => ⟨S2048, .i32⟩
  | .hbm, ⟨39, _⟩ => ⟨S1x1x2048, .i32⟩
  | .hbm, ⟨40, _⟩ => ⟨S2x32x1, .i32⟩
  | .hbm, ⟨41, _⟩ => ⟨S2x32x2048, .i32⟩
  | .hbm, ⟨42, _⟩ => ⟨S2x32x2048, .i32⟩
  | .hbm, ⟨43, _⟩ => ⟨S2x32x2048, .i1⟩
  | .hbm, ⟨44, _⟩ => ⟨S2x32, .i32⟩
  | .hbm, ⟨45, _⟩ => ⟨S2x32x1, .i32⟩
  | .hbm, ⟨46, _⟩ => ⟨S2x32x2048, .i32⟩
  | .hbm, ⟨47, _⟩ => ⟨S2x32x2048, .i32⟩
  | .hbm, ⟨48, _⟩ => ⟨S2x32x2048, .i1⟩
  | .hbm, ⟨49, _⟩ => ⟨S2x32x2048, .i1⟩
  | .hbm, ⟨50, _⟩ => ⟨S_, .i1⟩
  | .hbm, ⟨51, _⟩ => ⟨S32x2048, .i1⟩
  | .hbm, ⟨52, _⟩ => ⟨S_, .f32⟩
  | .hbm, ⟨53, _⟩ => ⟨S2x32, .f32⟩
  | .hbm, ⟨54, _⟩ => ⟨S2x32, .f32⟩
  | .hbm, ⟨55, _⟩ => ⟨S2x32, .f32⟩
  | .hbm, ⟨56, _⟩ => ⟨S2x32, .i32⟩
  | .hbm, ⟨57, _⟩ => ⟨S_, .i32⟩
  | .hbm, ⟨58, _⟩ => ⟨S2x32, .i32⟩
  | .hbm, ⟨59, _⟩ => ⟨S2x32, .i32⟩
  | .hbm, ⟨60, _⟩ => ⟨S_, .i32⟩
  | .hbm, ⟨61, _⟩ => ⟨S_, .i32⟩
  | .hbm, ⟨62, _⟩ => ⟨S2x32, .i32⟩
  | .hbm, ⟨63, _⟩ => ⟨S2x32, .i32⟩
  | .hbm, ⟨64, _⟩ => ⟨S2x32, .f32⟩
  | .hbm, ⟨65, _⟩ => ⟨S_, .f32⟩
  | .hbm, ⟨66, _⟩ => ⟨S2x32, .f32⟩
  | .hbm, ⟨67, _⟩ => ⟨S2x32, .f32⟩
  | .hbm, ⟨68, _⟩ => ⟨S2x32, .f32⟩
  | .hbm, ⟨69, _⟩ => ⟨S2x32, .f32⟩
  | .hbm, ⟨70, _⟩ => ⟨S2x32, .i32⟩
  | .hbm, ⟨71, _⟩ => ⟨S1280, .i32⟩
  | .hbm, ⟨72, _⟩ => ⟨S1x1x1280, .i32⟩
  | .hbm, ⟨73, _⟩ => ⟨S2x32x1, .i32⟩
  | .hbm, ⟨74, _⟩ => ⟨S2x32x1280, .i32⟩
  | .hbm, ⟨75, _⟩ => ⟨S2x32x1280, .i32⟩
  | .hbm, ⟨76, _⟩ => ⟨S2x32x1280, .i1⟩
  | .hbm, ⟨77, _⟩ => ⟨S2x32, .i32⟩
  | .hbm, ⟨78, _⟩ => ⟨S2x32x1, .i32⟩
  | .hbm, ⟨79, _⟩ => ⟨S2x32x1280, .i32⟩
  | .hbm, ⟨80, _⟩ => ⟨S2x32x1280, .i32⟩
  | .hbm, ⟨81, _⟩ => ⟨S2x32x1280, .i1⟩
  | .hbm, ⟨82, _⟩ => ⟨S2x32x1280, .i1⟩
  | .hbm, ⟨83, _⟩ => ⟨S_, .i1⟩
  | .hbm, ⟨84, _⟩ => ⟨S32x1280, .i1⟩
  | .hbm, ⟨85, _⟩ => ⟨S32x2048x1, .i1⟩
  | .hbm, ⟨86, _⟩ => ⟨S32x1x1280, .i1⟩
  | .hbm, ⟨87, _⟩ => ⟨S32x2048x1280, .i1⟩
  | .hbm, ⟨88, _⟩ => ⟨S32x2048x1280, .i1⟩
  | .hbm, ⟨89, _⟩ => ⟨S32x2048x1280, .i1⟩
  | .hbm, ⟨90, _⟩ => ⟨S32x2048x1280, .i1⟩
  | .hbm, ⟨91, _⟩ => ⟨S32x2048x1280, .f32⟩
  | .hbm, ⟨92, _⟩ => ⟨S32x2048x1280, .f32⟩
  | .hbm, ⟨93, _⟩ => ⟨S32x2048x1536, .f32⟩
  | _, _ => ⟨S32x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_3 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_call1_v0 : Ref sig .tc := ⟨.hbm, 61, rfl⟩
abbrev main_call1_v1 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]

class Facts₀ : Prop where
  slices_S32x2048x1536_S32x2048x256_0_0_0 : S32x2048x1536.Slices ![0, 0, 0] S32x2048x256
  slices_S32x2048x1536_S32x2048x1280_0_0_256 : S32x2048x1536.Slices ![0, 0, 256] S32x2048x1280
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S2x32_0_1 : S1x32.BroadcastsInDim S2x32 (![0, 1] : Fin 2 → Fin S2x32.rank)
  bcast_S_S2x32 : S_.BroadcastsInDim S2x32 (![] : Fin 0 → Fin S2x32.rank)
  bcast_S2048_S1x1x2048_2 : S2048.BroadcastsInDim S1x1x2048 (![2] : Fin 1 → Fin S1x1x2048.rank)
  bcast_S2x32_S2x32x1_0_1 : S2x32.BroadcastsInDim S2x32x1 (![0, 1] : Fin 2 → Fin S2x32x1.rank)
  bcast_S1x1x2048_S2x32x2048_0_1_2 : S1x1x2048.BroadcastsInDim S2x32x2048 (![0, 1, 2] : Fin 3 → Fin S2x32x2048.rank)
  bcast_S2x32x1_S2x32x2048_0_1_2 : S2x32x1.BroadcastsInDim S2x32x2048 (![0, 1, 2] : Fin 3 → Fin S2x32x2048.rank)
  reducesTo_S2x32x2048_S32x2048_d0 : S2x32x2048.ReducesTo [0] S32x2048
  h_S_ : 0 < S_.numel
  bcast_S1280_S1x1x1280_2 : S1280.BroadcastsInDim S1x1x1280 (![2] : Fin 1 → Fin S1x1x1280.rank)
  bcast_S1x1x1280_S2x32x1280_0_1_2 : S1x1x1280.BroadcastsInDim S2x32x1280 (![0, 1, 2] : Fin 3 → Fin S2x32x1280.rank)
  bcast_S2x32x1_S2x32x1280_0_1_2 : S2x32x1.BroadcastsInDim S2x32x1280 (![0, 1, 2] : Fin 3 → Fin S2x32x1280.rank)
  reducesTo_S2x32x1280_S32x1280_d0 : S2x32x1280.ReducesTo [0] S32x1280
  bcast_S32x2048_S32x2048x1_0_1 : S32x2048.BroadcastsInDim S32x2048x1 (![0, 1] : Fin 2 → Fin S32x2048x1.rank)
  bcast_S32x1280_S32x1x1280_0_2 : S32x1280.BroadcastsInDim S32x1x1280 (![0, 2] : Fin 2 → Fin S32x1x1280.rank)
  bcast_S32x2048x1_S32x2048x1280_0_1_2 : S32x2048x1.BroadcastsInDim S32x2048x1280 (![0, 1, 2] : Fin 3 → Fin S32x2048x1280.rank)
  bcast_S32x1x1280_S32x2048x1280_0_1_2 : S32x1x1280.BroadcastsInDim S32x2048x1280 (![0, 1, 2] : Fin 3 → Fin S32x2048x1280.rank)
  concatenates_S32x2048x256_S32x2048x1280_S32x2048x1536_d2 : Shape.Concatenates [S32x2048x256, S32x2048x1280] S32x2048x1536 2

variable [Facts₀]

class Facts : Prop extends Facts₀ where

variable [Facts]
-- ==== Proof.LibBitFloat.lean ====
/-
  A one-bit mask as a float, at the ideal instance.

  A one-bit word converts to the extended real `0` or `1` (`bit`). Two ways of turning two masks `a`, `b` into the
  factor that keeps an entry only where neither mask is set agree: the product `(1 - bit a)·(1 - bit b)` of the two
  complements is the float of the word `¬(a ∨ b)` (`one_sub_mul_one_sub`: the four cases `1·1`, `1·0`, `0·1`, `0·0`).
  Read at an index, an unsigned conversion of a mask array to f32 is `bit` of the entry (`uitofp_apply`), and the
  array `1.0 - float (mask)`, the one broadcast from the scalar pattern `0x3F800000` to any shape, is `1 - bit` of
  the entry (`one_sub_mask_apply`).
-/
import Idealize.ShloMosaic.PureOps.Ideal
import Idealize.ShloMosaic.Lib.ValueIdx
import Idealize.ShloMosaic.Lib.IdealHost

noncomputable section

namespace Cert.BitFloat

open Idealize.ShloMosaic Idealize.ShloMosaic.ValueIdx

/-- A one-bit word as an extended real: `0` or `1`. -/
def bit (a : BitVec 1) : EReal := ((a.toNat : ℝ) : EReal)

/-- A one-bit word is `0` or `1`. -/
theorem bv1_cases (a : BitVec 1) : a = 0#1 ∨ a = 1#1 := by
  revert a; decide

theorem bit_zero : bit 0#1 = 0 := by
  show (((0#1 : BitVec 1).toNat : ℝ) : EReal) = 0
  rw [show (0#1 : BitVec 1).toNat = 0 from rfl, Nat.cast_zero, EReal.coe_zero]

theorem bit_one : bit 1#1 = 1 := by
  show (((1#1 : BitVec 1).toNat : ℝ) : EReal) = 1
  rw [show (1#1 : BitVec 1).toNat = 1 from rfl, Nat.cast_one, EReal.coe_one]

theorem one_sub_one : (1 : EReal) - 1 = 0 := by
  rw [show (1 : EReal) = ((1 : ℝ) : EReal) from rfl, ← EReal.coe_sub, sub_self, EReal.coe_zero]

/-- The product of the two complements is the float of `¬(a ∨ b)`. -/
theorem one_sub_mul_one_sub (a b : BitVec 1) : ((1 : EReal) - bit a) * (1 - bit b) = bit (~~~(a ||| b)) := by
  rcases bv1_cases a with rfl | rfl <;> rcases bv1_cases b with rfl | rfl
  · rw [show ~~~((0#1 : BitVec 1) ||| 0#1) = 1#1 from rfl, bit_zero, bit_one, sub_zero, mul_one]
  · rw [show ~~~((0#1 : BitVec 1) ||| 1#1) = 0#1 from rfl, bit_zero, bit_one, sub_zero, one_sub_one, mul_zero]
  · rw [show ~~~((1#1 : BitVec 1) ||| 0#1) = 0#1 from rfl, bit_zero, bit_one, sub_zero, one_sub_one, zero_mul]
  · rw [show ~~~((1#1 : BitVec 1) ||| 1#1) = 0#1 from rfl, bit_zero, bit_one, one_sub_one, zero_mul]

/-- An unsigned conversion of a mask array to f32, read at an index. -/
theorem uitofp_apply {s : Shape} (w : IVec s 1) (j : s.Idx) : uitofp (F := Ideal) .f32 w j = bit (w j) := rfl

/-- One minus a mask converted to a float, the one a scalar `1.0` broadcast to the mask's shape, read at an index. -/
theorem one_sub_mask_apply {s : Shape} (h : (⟨0, ![]⟩ : Shape).BroadcastsInDim s ![]) (w : IVec s 1) (j : s.Idx) :
    subf (broadcastInDim s ![] h (constant (F := Ideal) ⟨0, ![]⟩ .f32 0x3F800000#32)) (uitofp (F := Ideal) .f32 w) j
      = 1 - bit (w j) := by
  show broadcastInDim s ![] h (constant (F := Ideal) ⟨0, ![]⟩ .f32 0x3F800000#32) j - bit (w j) = _
  rw [broadcastInDim_scalar_apply]
  show Ideal.ofBits .f32 0x3F800000#32 - bit (w j) = _
  rw [Ideal.ofBits_one_f32]

end Cert.BitFloat

end
-- ==== Proof.KeepFactor.lean ====
/-
  The masked spectrogram as ONE function of the input and of two one-bit masks.

  The input `X : [32, 2048, 1536]` holds, per sample and per time step, 256 video features followed by 1280 audio
  features. A time mask `tm : [32, 2048]` and a frequency mask `fm : [32, 1280]` of one-bit words say which time
  steps and which audio features of a sample are blanked. The result keeps the video features and multiplies the
  audio feature `(b, t, 256 + k)` by the keep factor, which is `1` when neither `tm (b, t)` nor `fm (b, k)` is set
  and `0` otherwise.

  The keep factor has two spellings. One converts the word `¬(tm ∨ fm)` to a float. The other converts each mask
  to a float, takes `1 - ·` of each and multiplies. On one-bit words they agree: the four cases give
  `1·1 = 1`, `1·0 = 0`, `0·1 = 0`, `0·0 = 0` (`one_sub_mul_one_sub`). No finiteness is needed anywhere: both sides multiply
  the same input entry by the same factor.
-/
import Idealize.ShloMosaic.PureOps.Ideal
import Idealize.ShloMosaic.Lib.ValueIdx
import proofs.«104250_j40853728920174_1_alg».proof.Proof.LibBitFloat

noncomputable section

namespace Cert.SpecAugment

open Idealize.ShloMosaic Idealize.ShloMosaic.ValueIdx Cert.BitFloat

/-- The input and the result: samples × time steps × features. -/
abbrev SX : Shape := ⟨3, ![32, 2048, 1536]⟩
/-- The time mask: samples × time steps. -/
abbrev ST : Shape := ⟨2, ![32, 2048]⟩
/-- The frequency mask: samples × audio features. -/
abbrev SA : Shape := ⟨2, ![32, 1280]⟩

/-- The masked spectrogram: video features kept, audio feature `k = d - 256` of sample `b` at time `t` multiplied
    by the keep factor of `tm (b, t)` and `fm (b, k)`. -/
def masked (X : FVec Ideal SX .f32) (tm : IVec ST 1) (fm : IVec SA 1) : FVec Ideal SX .f32 := fun i =>
  if (i 2).val < 256 then X i
  else X i * bit (~~~(tm (ix2 (i 0) (i 1)) ||| fm (ix2 (i 0) ⟨(i 2).val - 256, by
    have h2 : (i 2).val < 1536 := (i 2).isLt
    omega⟩)))

/-- A video feature is kept. -/
theorem masked_video (X : FVec Ideal SX .f32) (tm : IVec ST 1) (fm : IVec SA 1)
    (b : Fin 32) (t : Fin 2048) (d : Fin 1536) (hd : d.val < 256) :
    masked X tm fm (ix3 b t d) = X (ix3 b t d) := by
  unfold masked
  exact if_pos hd

/-- An audio feature is multiplied by its keep factor. -/
theorem masked_audio (X : FVec Ideal SX .f32) (tm : IVec ST 1) (fm : IVec SA 1)
    (b : Fin 32) (t : Fin 2048) (d : Fin 1536) (k : Fin 1280) (hd : d.val = 256 + k.val) :
    masked X tm fm (ix3 b t d) = X (ix3 b t d) * bit (~~~(tm (ix2 b t) ||| fm (ix2 b k))) := by
  unfold masked
  have hn : ¬ ((ix3 b t d : SX.Idx) 2).val < 256 := by show ¬ d.val < 256; omega
  rw [if_neg hn]
  have hk : (⟨((ix3 b t d : SX.Idx) 2).val - 256, by
      have h2 : ((ix3 b t d : SX.Idx) 2).val < 1536 := ((ix3 b t d : SX.Idx) 2).isLt
      omega⟩ : Fin 1280) = k := Fin.ext (by show d.val - 256 = k.val; omega)
  rw [hk]

/-- The same result with the keep factor given as two float arrays, one per time step and one per audio feature:
    audio feature `k = d - 256` of sample `b` at time `t` is multiplied by `kt (b, t) · kf (b, k)`. -/
def maskedBy (X : FVec Ideal SX .f32) (kt : FVec Ideal ST .f32) (kf : FVec Ideal SA .f32) : FVec Ideal SX .f32 := fun i =>
  if (i 2).val < 256 then X i
  else X i * (kt (ix2 (i 0) (i 1)) * kf (ix2 (i 0) ⟨(i 2).val - 256, by
    have h2 : (i 2).val < 1536 := (i 2).isLt
    omega⟩))

/-- A video feature is kept. -/
theorem maskedBy_video (X : FVec Ideal SX .f32) (kt : FVec Ideal ST .f32) (kf : FVec Ideal SA .f32)
    (y : SX.Idx) (h : (y 2).val < 256) : maskedBy X kt kf y = X y := by
  unfold maskedBy
  exact if_pos h

/-- An audio feature is multiplied by the two factors of its sample, time step and audio feature. -/
theorem maskedBy_audio (X : FVec Ideal SX .f32) (kt : FVec Ideal ST .f32) (kf : FVec Ideal SA .f32)
    (y : SX.Idx) (k : Fin 1280) (h2 : (y 2).val = 256 + k.val) :
    maskedBy X kt kf y = X y * (kt (ix2 (y 0) (y 1)) * kf (ix2 (y 0) k)) := by
  unfold maskedBy
  have hn : ¬ (y 2).val < 256 := by omega
  rw [if_neg hn]
  have hk : (⟨(y 2).val - 256, by
      have h2' : (y 2).val < 1536 := (y 2).isLt
      omega⟩ : Fin 1280) = k := Fin.ext (by show (y 2).val - 256 = k.val; omega)
  rw [hk]

/-- With each float array one minus its mask as a float, the product of the two factors is the keep factor of the
    two mask bits (`one_sub_mul_one_sub`): the two spellings give one array. -/
theorem maskedBy_one_sub (X : FVec Ideal SX .f32) (tm : IVec ST 1) (fm : IVec SA 1) :
    maskedBy X (fun j => 1 - bit (tm j)) (fun j => 1 - bit (fm j)) = masked X tm fm := by
  funext i
  unfold maskedBy masked
  by_cases h : (i 2).val < 256
  · rw [if_pos h, if_pos h]
  · rw [if_neg h, if_neg h, one_sub_mul_one_sub]

end Cert.SpecAugment

end
-- ==== Proof.RefMasked.lean ====
/-
  The reference's result is the masked spectrogram of its own two mask stages.

  The reference slices the input into its video and audio features, broadcasts the time mask along the feature
  axis and the frequency mask along the time axis, takes `¬(· ∨ ·)`, converts that word to a float, multiplies the
  audio features by it and joins the two parts again along the feature axis. Read at an index `(b, t, d)`: below
  feature 256 the joined array reads the video slice, which reads the input at `(b, t, d)`; from 256 on it reads
  the product at `(b, t, d - 256)`, whose first factor is the input at `(b, t, d)` and whose second is the float
  of `¬(tm (b, t) ∨ fm (b, d - 256))`.
-/
import proofs.«104250_j40853728920174_1_alg».proof.Proof.RefRead
import proofs.«104250_j40853728920174_1_alg».proof.Proof.KeepFactor
import Idealize.ShloMosaic.Lib.Pipeline.Value
import Idealize.ShloMosaic.Lib.ValueIdx

noncomputable section

namespace Cert.ReferenceIdeal.RefMasked

open Cert.ReferenceIdeal Cert.ReferenceIdeal.PRead Cert.SpecAugment Idealize.ShloMosaic Idealize.ShloMosaic.ValueIdx

/-- The reference's last stage, as a function of its arguments, is `masked` of the input and of the stages that
    hold the time mask (`%37`) and the frequency mask (`%63`). -/
theorem result_eq (x0 : FVec Ideal S32x2048x1536 .f32) (x1 : IVec S32 32) (x2 x3 x4 x5 : FVec Ideal S2x32 .f32) :
    val_main_v72 (F := Ideal) x0 x1 x2 x3 x4 x5
      = masked x0 (val_main_v37 (F := Ideal) x1 x2 x3) (val_main_v63 (F := Ideal) x4 x5) := by
  funext i
  obtain ⟨b, t, d, rfl⟩ : ∃ (b : Fin 32) (t : Fin 2048) (d : Fin 1536), i = ix3 b t d := ⟨i 0, i 1, i 2, eq_ix3 i⟩
  unfold val_main_v72
  by_cases hd : d.val < 256
  · -- a video feature: the first piece of the join
    rw [masked_video _ _ _ b t d hd]
    refine (concatenate_pair_apply_left (s₁ := S32x2048x256) (s₂ := S32x2048x1280) 2 _ _ _ (ix3 b t d) rfl
      (ix3 b t (⟨d.val, hd⟩ : Fin 256)) (fun a => ?_)).trans ?_
    · match a with
      | ⟨0, _⟩ => rfl
      | ⟨1, _⟩ => rfl
      | ⟨2, _⟩ => rfl
    · rw [val_main_v0_apply]
      exact congrArg x0 (funext fun a => match a with
        | ⟨0, _⟩ => rfl
        | ⟨1, _⟩ => rfl
        | ⟨2, _⟩ => rfl)
  · -- an audio feature: the second piece of the join, at feature `d - 256`
    have hk : d.val - 256 < 1280 := by have := d.isLt; omega
    have hdk : d.val = 256 + (⟨d.val - 256, hk⟩ : Fin 1280).val := by show d.val = 256 + (d.val - 256); omega
    rw [masked_audio _ _ _ b t d ⟨d.val - 256, hk⟩ hdk]
    refine (concatenate_pair_apply_right (s₁ := S32x2048x256) (s₂ := S32x2048x1280) 2 _ _ _ (ix3 b t d) rfl rfl
      (ix3 b t (⟨d.val - 256, hk⟩ : Fin 1280))
      (fun a ha => ?_) ?_).trans ?_
    · match a with
      | ⟨0, _⟩ => rfl
      | ⟨1, _⟩ => rfl
      | ⟨2, _⟩ => exact absurd rfl ha
    · show (d.val - 256) + 256 = d.val; omega
    · rw [val_main_v71_apply, val_main_v1_apply, val_main_v70_apply, val_main_v69_apply, val_main_v68_apply,
        val_main_v66_apply, val_main_v64_apply, val_main_v67_apply, val_main_v65_apply]
      have i1 : idx_main_v1 (ix3 b t (⟨d.val - 256, hk⟩ : Fin 1280)) = ix3 b t d := funext fun a => match a with
        | ⟨0, _⟩ => rfl
        | ⟨1, _⟩ => rfl
        | ⟨2, _⟩ => Fin.ext (by show 256 + (d.val - 256) = d.val; omega)
      have i2 : idx_main_v64 (idx_main_v66 (ix3 b t (⟨d.val - 256, hk⟩ : Fin 1280))) = ix2 b t := funext fun a => match a with
        | ⟨0, _⟩ => rfl
        | ⟨1, _⟩ => rfl
      have i3 : idx_main_v65 (idx_main_v67 (ix3 b t (⟨d.val - 256, hk⟩ : Fin 1280))) = ix2 b (⟨d.val - 256, hk⟩ : Fin 1280) :=
        funext fun a => match a with
        | ⟨0, _⟩ => rfl
        | ⟨1, _⟩ => rfl
      rw [i1, i2, i3]
      rfl

end Cert.ReferenceIdeal.RefMasked

end
-- ==== Proof.LibOuterProduct.lean ====
/-
  The row-wise outer product `x[:, :, None] * y[:, None, :]` read at an index, and its row-major flattening.

  For `x : [a, b]` and `y : [a, c]` the product array `[a, b, c]` holds `x[i, j] · y[i, k]` at `(i, j, k)`: `x` is
  cast to `[a, b, 1]` and repeated along the last axis, `y` is cast to `[a, 1, c]` and repeated along the middle one,
  and the two are multiplied entry by entry. Flattened to `[a, b·c]` the entry at `(i, q)` is the one at
  `(i, j, k)` for the `j, k` with `q = j·c + k`. Each step is the library's general lemma (a shape cast keeps the
  row-major position; a broadcast reads coordinate zero on a unit axis) with both indices written by coordinates,
  at any extents.
-/
import Idealize.ShloMosaic.Lib.Pipeline.Value
import Idealize.ShloMosaic.Lib.ValueIdx
import Idealize.ShloMosaic.PureOps.Ideal

namespace Cert.OuterProduct

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (y : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ y h (ix3 i u k) = y (ix2 i k) :=
  shapeCast_apply y h _ _ (by
    have hu : u.val = 0 := by omega
    rw [Shape.rowMajor_val_two, Shape.rowMajor_val_three]
    show i.val * c + k.val = (i.val * 1 + u.val) * c + k.val
    rw [hu, Nat.mul_one, Nat.add_zero])

/-- An `[a, b, 1]` array repeated along its last axis to `[a, b, c]` reads, at `(i, j, k)`, its one value for
    `(i, j)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array repeated along its middle axis to `[a, b, c]` reads, at `(i, j, k)`, its one value for
    `(i, k)`. -/
theorem broadcastTo_a1c_abc_apply {a b c : ℕ} (y : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ y h (ix3 i j k) = y (ix3 i (0 : Fin 1) k) := by
  refine broadcastTo_apply y h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, c]` array flattened to `[a, n]`, `n = b·c`, reads, at `(i, q)`, the operand at `(i, j, k)` for the
    `j, k` with `q = j·c + k`. -/
theorem shapeCast_abc_an_apply {a b c n : ℕ} (z : (⟨3, ![a, b, c]⟩ : Shape).Idx → α)
    (h : (⟨3, ![a, b, c]⟩ : Shape).ShapeCasts ⟨2, ![a, n]⟩) (hn : n = b * c)
    (i : Fin a) (q : Fin n) (j : Fin b) (k : Fin c) (hq : q.val = j.val * c + k.val) :
    shapeCast ⟨2, ![a, n]⟩ z h (ix2 i q) = z (ix3 i j k) :=
  shapeCast_apply z h _ _ (by
    rw [Shape.rowMajor_val_three, Shape.rowMajor_val_two]
    show (i.val * b + j.val) * c + k.val = i.val * n + q.val
    rw [hq, hn, Nat.add_mul, Nat.mul_assoc, Nat.add_assoc])

/-- The outer product at `(i, j, k)`, on the extended reals: `x[i, j] · y[i, k]`. -/
theorem outer_apply {a b c : ℕ} {φ : FTy} (x : FVec Ideal ⟨2, ![a, b]⟩ φ) (y : FVec Ideal ⟨2, ![a, c]⟩ φ)
    (hx : (⟨2, ![a, b]⟩ : Shape).ShapeCasts ⟨3, ![a, b, 1]⟩) (hxb : (⟨3, ![a, b, 1]⟩ : Shape).Broadcasts ⟨3, ![a, b, c]⟩)
    (hy : (⟨2, ![a, c]⟩ : Shape).ShapeCasts ⟨3, ![a, 1, c]⟩) (hyb : (⟨3, ![a, 1, c]⟩ : Shape).Broadcasts ⟨3, ![a, b, c]⟩)
    (i : Fin a) (j : Fin b) (k : Fin c) :
    mulf (broadcastTo ⟨3, ![a, b, c]⟩ (shapeCast ⟨3, ![a, b, 1]⟩ x hx) hxb)
        (broadcastTo ⟨3, ![a, b, c]⟩ (shapeCast ⟨3, ![a, 1, c]⟩ y hy) hyb) (ix3 i j k)
      = x (ix2 i j) * y (ix2 i k) := by
  rw [mulf_apply, broadcastTo_ab1_abc_apply, shapeCast_ab_ab1_apply, broadcastTo_a1c_abc_apply,
    shapeCast_ac_a1c_apply]

/-- The outer product flattened to `[a, b·c]`, at `(i, q)` with `q = j·c + k`: `x[i, j] · y[i, k]`. -/
theorem outer_flat_apply {a b c n : ℕ} {φ : FTy} (x : FVec Ideal ⟨2, ![a, b]⟩ φ) (y : FVec Ideal ⟨2, ![a, c]⟩ φ)
    (hx : (⟨2, ![a, b]⟩ : Shape).ShapeCasts ⟨3, ![a, b, 1]⟩) (hxb : (⟨3, ![a, b, 1]⟩ : Shape).Broadcasts ⟨3, ![a, b, c]⟩)
    (hy : (⟨2, ![a, c]⟩ : Shape).ShapeCasts ⟨3, ![a, 1, c]⟩) (hyb : (⟨3, ![a, 1, c]⟩ : Shape).Broadcasts ⟨3, ![a, b, c]⟩)
    (hf : (⟨3, ![a, b, c]⟩ : Shape).ShapeCasts ⟨2, ![a, n]⟩) (hn : n = b * c)
    (i : Fin a) (q : Fin n) (j : Fin b) (k : Fin c) (hq : q.val = j.val * c + k.val) :
    shapeCast ⟨2, ![a, n]⟩
        (mulf (broadcastTo ⟨3, ![a, b, c]⟩ (shapeCast ⟨3, ![a, b, 1]⟩ x hx) hxb)
          (broadcastTo ⟨3, ![a, b, c]⟩ (shapeCast ⟨3, ![a, 1, c]⟩ y hy) hyb)) hf (ix2 i q)
      = x (ix2 i j) * y (ix2 i k) := by
  rw [shapeCast_abc_an_apply _ hf hn i q j k hq, outer_apply]

end Cert.OuterProduct
-- ==== Proof.KernelBlock.lean ====
/-
  What the kernel body leaves in one output block.

  At a grid point the body holds three input blocks: `x0 : [8, 128, 1536]` of the spectrogram, `x1 : [8, 128]` of the
  time keep factors and `x2 : [8, 1280]` of the frequency keep factors. It writes the output block in two stores
  that tile it along the feature axis: features `0 … 255` receive the input block's features unchanged, features
  `256 … 1535` receive `x0 · (x1[:, :, None] · x2[:, None, :])`. So the block it leaves is ONE function of the block
  index: `x0 y` below feature 256, and `x0 y · (x1 (y₀, y₁) · x2 (y₀, y₂ - 256))` from there on. Both stores are
  pieces of that function, hence so is what the two leave together, whatever their order.
-/
import proofs.«104250_j40853728920174_1_alg».proof.Proof.Gen.KernelIdeal.Frame
import proofs.«104250_j40853728920174_1_alg».proof.Proof.LibOuterProduct
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.TcCoe Idealize.ShloMosaic.Tactic
open Idealize.ShloMosaic.ValueIdx Idealize.SL.Sem

theorem hz2 : (![0, 0] : Fin 2 → Nat) = fun _ => 0 := funext fun a => by fin_cases a <;> rfl

/-- The output block as a function of the three input blocks. -/
def blockOut (x0 : FVec Ideal S8x128x1536 .f32) (x1 : FVec Ideal S8x128 .f32) (x2 : FVec Ideal S8x1280 .f32) :
    FVec Ideal S8x128x1536 .f32 := fun y =>
  if (y 2).val < 256 then x0 y
  else x0 y * (x1 (ix2 (y 0) (y 1)) * x2 (ix2 (y 0) ⟨(y 2).val - 256, by
    have h2 : (y 2).val < 1536 := (y 2).isLt
    omega⟩))

/-- Below feature 256 the block keeps the input. -/
theorem blockOut_video (x0 : FVec Ideal S8x128x1536 .f32) (x1 : FVec Ideal S8x128 .f32) (x2 : FVec Ideal S8x1280 .f32)
    (y : S8x128x1536.Idx) (h : (y 2).val < 256) : blockOut x0 x1 x2 y = x0 y := by
  unfold blockOut
  exact if_pos h

/-- From feature 256 on the block holds the input times the two keep factors, at coordinates `(p, q, 256 + k)`. -/
theorem blockOut_audio (x0 : FVec Ideal S8x128x1536 .f32) (x1 : FVec Ideal S8x128 .f32) (x2 : FVec Ideal S8x1280 .f32)
    (y : S8x128x1536.Idx) (p : Fin 8) (q : Fin 128) (k : Fin 1280)
    (h0 : y 0 = p) (h1 : y 1 = q) (h2 : (y 2).val = 256 + k.val) :
    blockOut x0 x1 x2 y = x0 y * (x1 (ix2 p q) * x2 (ix2 p k)) := by
  unfold blockOut
  have hn : ¬ (y 2).val < 256 := by omega
  rw [if_neg hn]
  have hk : (⟨(y 2).val - 256, by
      have h2' : (y 2).val < 1536 := (y 2).isLt
      omega⟩ : Fin 1280) = k := Fin.ext (by show (y 2).val - 256 = k.val; omega)
  rw [hk, h0, h1]

/-- The audio store's payload at `(p, q, k)`: the loaded slab times the outer product of the two keep blocks. -/
theorem pay_audio (v0 : FVec Ideal S8x128 .f32) (v2 : FVec Ideal S8x1280 .f32) (v11 : FVec Ideal S8x128x1280 .f32)
    (p : Fin 8) (q : Fin 128) (k : Fin 1280) :
    k0_pay1 (F := Ideal) v0 v2 v11 (ix3 p q k) = v11 (ix3 p q k) * (v0 (ix2 p q) * v2 (ix2 p k)) := by
  unfold k0_pay1
  simp only [shapeCast_self]
  rw [mulf_apply, Cert.OuterProduct.outer_apply]

/-- What the body leaves in the output's staging buffer is `blockOut` of the three input blocks. -/
theorem out_eq (c : Dev nD) (i : grid0.Coords) (arg2 : Memref sig .tc .vmem S8x128x1536 .f32) (harg2 : arg2.IsWhole)
    (arg3 : Memref sig .tc .vmem S8x128 .f32) (harg3 : arg3.IsWhole) (arg4 : Memref sig .tc .vmem S8x1280 .f32) (harg4 : arg4.IsWhole)
    (arg5 : Memref sig .tc .vmem S8x128x1536 .f32) (harg5 : arg5.IsWhole)
    (x0 : FVec Ideal S8x128x1536 .f32) (x1 : FVec Ideal S8x128 .f32) (x2 : FVec Ideal S8x1280 .f32) :
    out0_A_3 (F := Ideal) c i arg2 harg2 arg3 harg3 arg4 harg4 arg5 harg5 x0 x1 x2 = blockOut x0 x1 x2 := by
  unfold out0_A_3
  rw [View.read_writes_eq_canon _ _ _ (cover0_A_3 (F := Ideal) c i arg2 harg2 arg3 harg3 arg4 harg4 arg5 harg5 x0 x1 x2)]
  funext y
  refine View.canon_apply_of_pieces (blockOut x0 x1 x2) _ ?_ y
    (cover0_A_3 (F := Ideal) c i arg2 harg2 arg3 harg3 arg4 harg4 arg5 harg5 x0 x1 x2 y)
  unfold kernelRun0_A
  dsimp only
  sl_unfold_words
  intro pc hpc x
  simp only [List.mem_cons, List.not_mem_nil, or_false] at hpc
  rcases hpc with rfl | rfl
  · -- the audio store: features 256 … 1535
    dsimp only
    obtain ⟨p, q, k, rfl⟩ : ∃ (p : Fin 8) (q : Fin 128) (k : Fin 1280), x = ix3 p q k := ⟨x 0, x 1, x 2, eq_ix3 x⟩
    simp only [View.readAt_eq_ld, harg2.read_unread, harg3.read_unread, harg4.read_unread,
      View.ld_unit_zero (S := S8x128) hz2, View.ld_unit_zero (S := S8x1280) hz2]
    rw [pay_audio]
    refine (blockOut_audio x0 x1 x2 _ p q k (Fin.ext ?_) (Fin.ext ?_) ?_).symm
    · show 0 + 1 * p.val = p.val; omega
    · show 0 + 1 * q.val = q.val; omega
    · show 256 + 1 * k.val = 256 + k.val; omega
  · -- the video store: features 0 … 255
    dsimp only
    simp only [View.readAt_eq_ld, harg2.read_unread]
    refine (blockOut_video x0 x1 x2 _ ?_).symm
    show 0 + 1 * (x 2).val < 256
    have h2 : (x 2).val < 256 := (x 2).isLt
    omega

end Cert.KernelIdeal.Block

end
-- ==== Proof.KernelArray.lean ====
/-
  The kernel's result array as one function of the three arrays its region stages.

  The grid has 4 × 16 points. Point `(i, j)` stages rows `8i … 8i + 7`, time steps `128j … 128j + 127` and all features
  of the input, the same rows and time steps of the time keep factors, and the same rows and all audio features of
  the frequency keep factors; it writes back the same rows, time steps and all features of the result. So the block
  a point writes back is the restriction, to that block, of ONE function of the result's index: the input entry
  itself below feature 256, and the input entry times the two keep factors of its sample from there on. The 64
  blocks tile the result, hence the result array is that function.
-/
import proofs.«104250_j40853728920174_1_alg».proof.Proof.Gen.KernelIdeal.Value
import proofs.«104250_j40853728920174_1_alg».proof.Proof.KernelBlock
import proofs.«104250_j40853728920174_1_alg».proof.Proof.KeepFactor
import Idealize.ShloMosaic.Lib.Pipeline.Value
import Idealize.ShloMosaic.Lib.ValueIdx

noncomputable section

namespace Cert.KernelIdeal.ResultArray

open Cert.KernelIdeal Cert.KernelIdeal.Gen Cert.SpecAugment Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The three staged arrays as the region finds them, at their literal types. -/
abbrev arrX (c : Dev nD) : FVec Ideal S32x2048x1536 .f32 := V m c main_arg0
abbrev arrT (c : Dev nD) : FVec Ideal S32x2048 .f32 := V m c main_v64
abbrev arrA (c : Dev nD) : FVec Ideal S32x1280 .f32 := V m c main_v67

/-- Each input window's block at a point, read at a block index, is its staged array at that index placed in the
    array (the block's embedding). -/
theorem iblk0_apply (c : Dev nD) (t : Fin cfg0.N) (y : S8x128x1536.Idx) :
    (iblk m c 0 t : FVec Ideal S8x128x1536 .f32) y = arrX m c (((cfg0.win 0).blk t).view.emb y) := by
  unfold iblk
  rw [View.read_apply]
  rfl
theorem iblk1_apply (c : Dev nD) (t : Fin cfg0.N) (y : S8x128.Idx) :
    (iblk m c 1 t : FVec Ideal S8x128 .f32) y = arrT m c (((cfg0.win 1).blk t).view.emb y) := by
  unfold iblk
  rw [View.read_apply]
  rfl
theorem iblk2_apply (c : Dev nD) (t : Fin cfg0.N) (y : S8x1280.Idx) :
    (iblk m c 2 t : FVec Ideal S8x1280 .f32) y = arrA m c (((cfg0.win 2).blk t).view.emb y) := by
  unfold iblk
  rw [View.read_apply]
  rfl

/-- The printed index maps, decided over the grid: the input and the time keep factors move with the result's
    block on the row and time axes, the frequency keep factors on the row axis only, and the result's block index
    is `(t / 16, t % 16, 0)`. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = win0_3.index t (0 : Fin 3) ∧ win0_1.index t (1 : Fin 2) = win0_3.index t (1 : Fin 3)
    ∧ win0_2.index t (0 : Fin 2) = win0_3.index t (0 : Fin 3) ∧ win0_2.index t (1 : Fin 2) = 0
    ∧ win0_3.index t (0 : Fin 3) ≤ 3 ∧ win0_3.index t (1 : Fin 3) ≤ 15 :=
  (by decide +kernel : ∀ t : Fin grid0.N, _)

/-- Every block of the result is some point's. -/
theorem idx_onto : ∀ (q0 : Fin 4) (q1 : Fin 16), ∃ t : Fin cfg0.N, win0_3.index t = ![q0.val, q1.val, 0] :=
  (by decide +kernel : ∀ (q0 : Fin 4) (q1 : Fin 16), ∃ t : Fin grid0.N, win0_3.index t = ![q0.val, q1.val, 0])

/-- What point `t` writes back is block `t` of `maskedBy` of the three staged arrays. -/
theorem flushed_eq (c : Dev nD) (t : Fin cfg0.N) :
    (dats m 0 c).flushed 3 t
      = ((cfg0.win 3).blk t).view.read (Elt Ideal) (maskedBy (arrX m c) (arrT m c) (arrA m c)) := by
  rw [Cert.KernelIdeal.Value.flushed3_A]
  rw [Cert.KernelIdeal.Block.out_eq c (grid0.coords t) (ms0_0 t) (hs0_0 t) (ms0_1 t) (hs0_1 t) (ms0_2 t) (hs0_2 t)
    (ms0_3 t) (hs0_3 t) (iblk m c 0 t) (iblk m c 1 t) (iblk m c 2 t)]
  obtain ⟨e00, e01, e02, e32, e10, e11, e20, e21, -, -⟩ := idx_facts t
  funext j
  show Cert.KernelIdeal.Block.blockOut (iblk m c 0 t) (iblk m c 1 t) (iblk m c 2 t) j
    = maskedBy (arrX m c) (arrT m c) (arrA m c) (((cfg0.win 3).blk t).view.emb j)
  have hj0 : (j 0).val < 8 := (j 0).isLt
  have hj1 : (j 1).val < 128 := (j 1).isLt
  have hj2 : (j 2).val < 1536 := (j 2).isLt
  have h0 : ((cfg0.win 0).blk t).view.emb j = ((cfg0.win 3).blk t).view.emb j := by
    funext a; apply Fin.ext
    match a with
    | ⟨0, _⟩ => show win0_0.index t (0 : Fin 3) * 8 + 1 * (j 0).val = win0_3.index t (0 : Fin 3) * 8 + 1 * (j 0).val; omega
    | ⟨1, _⟩ => show win0_0.index t (1 : Fin 3) * 128 + 1 * (j 1).val = win0_3.index t (1 : Fin 3) * 128 + 1 * (j 1).val; omega
    | ⟨2, _⟩ => show win0_0.index t (2 : Fin 3) * 1536 + 1 * (j 2).val = win0_3.index t (2 : Fin 3) * 1536 + 1 * (j 2).val; omega
  by_cases hj : (j 2).val < 256
  · -- a video feature
    rw [Cert.KernelIdeal.Block.blockOut_video _ _ _ j hj,
      maskedBy_video _ _ _ (((cfg0.win 3).blk t).view.emb j)
        (by show win0_3.index t (2 : Fin 3) * 1536 + 1 * (j 2).val < 256; omega)]
    rw [iblk0_apply, h0]
  · -- an audio feature
    have hk : (j 2).val - 256 < 1280 := by omega
    rw [Cert.KernelIdeal.Block.blockOut_audio _ _ _ j (j 0) (j 1) ⟨(j 2).val - 256, hk⟩ rfl rfl
        (by show (j 2).val = 256 + ((j 2).val - 256); omega),
      maskedBy_audio _ _ _ (((cfg0.win 3).blk t).view.emb j) ⟨(j 2).val - 256, hk⟩
        (by show win0_3.index t (2 : Fin 3) * 1536 + 1 * (j 2).val = 256 + ((j 2).val - 256); omega)]
    have h1 : ((cfg0.win 1).blk t).view.emb (ix2 (j 0) (j 1))
        = ix2 ((((cfg0.win 3).blk t).view.emb j) 0) ((((cfg0.win 3).blk t).view.emb j) 1) := by
      funext a; apply Fin.ext
      match a with
      | ⟨0, _⟩ => show win0_1.index t (0 : Fin 2) * 8 + 1 * (j 0).val = win0_3.index t (0 : Fin 3) * 8 + 1 * (j 0).val; omega
      | ⟨1, _⟩ => show win0_1.index t (1 : Fin 2) * 128 + 1 * (j 1).val = win0_3.index t (1 : Fin 3) * 128 + 1 * (j 1).val; omega
    have h2 : ((cfg0.win 2).blk t).view.emb (ix2 (j 0) (⟨(j 2).val - 256, hk⟩ : Fin 1280))
        = ix2 ((((cfg0.win 3).blk t).view.emb j) 0) (⟨(j 2).val - 256, hk⟩ : Fin 1280) := by
      funext a; apply Fin.ext
      match a with
      | ⟨0, _⟩ => show win0_2.index t (0 : Fin 2) * 8 + 1 * (j 0).val = win0_3.index t (0 : Fin 3) * 8 + 1 * (j 0).val; omega
      | ⟨1, _⟩ => show win0_2.index t (1 : Fin 2) * 1280 + 1 * ((j 2).val - 256) = (j 2).val - 256; omega
    rw [iblk0_apply, iblk1_apply, iblk2_apply, h0, h1, h2]
    rfl

/-- An index of the result is in point `t`'s block iff each coordinate is in the block's range on its axis. -/
theorem mem_blk (t : Fin cfg0.N) (i : S32x2048x1536.Idx) :
    i ∈ ((cfg0.win 3).blk t).view.set ↔ ∀ a : Fin 3, win0_3.index t a * S8x128x1536.size a ≤ (i a).val
      ∧ (i a).val < win0_3.index t a * S8x128x1536.size a + S8x128x1536.size a := by
  show i ∈ ((View.whole main_v68).slice (win0_3.rect t)).set ↔ _
  rw [View.set_slice_whole, Rect.mem_set_unit]
  exact Iff.rfl

/-- Every index of the result lies in the block of the point `(row / 8, time / 128)`. -/
theorem cover (i : S32x2048x1536.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 1536 := (i 2).isLt
  obtain ⟨t, ht⟩ := idx_onto ⟨(i 0).val / 8, by omega⟩ ⟨(i 1).val / 128, by omega⟩
  have q0 : win0_3.index t (0 : Fin 3) = (i 0).val / 8 := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 128 ≤ (i 1).val ∧ (i 1).val < win0_3.index t (1 : Fin 3) * 128 + 128; omega
  | ⟨2, _⟩ => show win0_3.index t (2 : Fin 3) * 1536 ≤ (i 2).val ∧ (i 2).val < win0_3.index t (2 : Fin 3) * 1536 + 1536; omega

/-- The result array after the run is `maskedBy` of the three staged arrays. -/
theorem final (c : Dev nD) :
    (dats m 0 c).arrAt 3 cfg0.N = maskedBy (arrX m c) (arrT m c) (arrA m c) :=
  (dats m 0 c).arrAt_eq_of_cover 3 (maskedBy (arrX m c) (arrT m c) (arrA m c)) (fun t _ => flushed_eq m c t) cover

end Cert.KernelIdeal.ResultArray

end
-- ==== Proof.KernelHost.lean ====
/-
  The two keep-factor arrays the kernel's region finds.

  Before the region the kernel's program computes, from the lengths and the four uniform draws, the one-bit time
  mask and the one-bit frequency mask by the same host operations, in the same order, as the reference's program
  (its stages `%37` and `%63`). It then converts each mask to a float and subtracts it from one. So the array staged
  by the region's second window is `1 - float (time mask)` and the one staged by its third window is
  `1 - float (frequency mask)`, the masks being the reference's stages of the same arguments.
-/
import proofs.«104250_j40853728920174_1_alg».proof.Proof.Gen.KernelIdeal.Frame
import proofs.«104250_j40853728920174_1_alg».proof.Proof.RefRead
import Idealize.ShloMosaic.Lib.StableHlo.Run

noncomputable section

namespace Cert.KernelIdeal.HostMasks

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The time mask of the arguments: the reference's stage `%37` at the kernel program's arguments. -/
abbrev timeMask (c : Dev nD) : IVec S32x2048 1 :=
  Cert.ReferenceIdeal.PRead.val_main_v37 (F := F) (m ((c : Thread nD τ).loc main_arg1))
    (m ((c : Thread nD τ).loc main_arg2)) (m ((c : Thread nD τ).loc main_arg3))

/-- The frequency mask of the arguments: the reference's stage `%63` at the kernel program's arguments. -/
abbrev freqMask (c : Dev nD) : IVec S32x1280 1 :=
  Cert.ReferenceIdeal.PRead.val_main_v63 (F := F) (m ((c : Thread nD τ).loc main_arg4))
    (m ((c : Thread nD τ).loc main_arg5))

set_option maxRecDepth 65536 in
set_option maxHeartbeats 4000000 in
/-- The second window's array: one minus the time mask as a float. -/
theorem V_keepT (c : Dev nD) :
    (V m c main_v64 : Vec F S32x2048 .f32)
      = subf (broadcastInDim S32x2048 ![] bcast_S_S32x2048 (constant (F := F) S_ .f32 0x3F800000#32))
          (uitofp (F := F) .f32 (timeMask m c)) := by
  dsimp only [V]
  simp only [hostOps0, hostOps0_1, hostOps0_2, hostOps0_3, hostOps0_4, List.flatten_cons, List.flatten_nil,
    List.append_nil, List.cons_append, List.nil_append]
  after_results_simp
  rfl

set_option maxRecDepth 65536 in
set_option maxHeartbeats 4000000 in
/-- The third window's array: one minus the frequency mask as a float. -/
theorem V_keepF (c : Dev nD) :
    (V m c main_v67 : Vec F S32x1280 .f32)
      = subf (broadcastInDim S32x1280 ![] bcast_S_S32x1280 (constant (F := F) S_ .f32 0x3F800000#32))
          (uitofp (F := F) .f32 (freqMask m c)) := by
  dsimp only [V]
  simp only [hostOps0, hostOps0_1, hostOps0_2, hostOps0_3, hostOps0_4, List.flatten_cons, List.flatten_nil,
    List.append_nil, List.cons_append, List.nil_append]
  after_results_simp
  rfl

end Cert.KernelIdeal.HostMasks

end
-- ==== Proof.KernelRun.lean ====
/-
  The kernel's run at the ideal instance, with its result array as the masked spectrogram.

  The result array is `maskedBy` of the three arrays the region stages (the input, and the two keep-factor arrays
  the host prefix computed). The two keep-factor arrays are one minus the time mask as a float and one minus the
  frequency mask as a float. By the law of the keep
  factor the result is therefore `masked` of the input and of the two one-bit masks.
-/
import proofs.«104250_j40853728920174_1_alg».proof.Proof.KernelArray
import proofs.«104250_j40853728920174_1_alg».proof.Proof.KernelHost

noncomputable section

namespace Cert.KernelIdeal.ResultArray

open Cert.KernelIdeal Cert.KernelIdeal.Gen Cert.SpecAugment Idealize.ShloMosaic Idealize.ShloMosaic.TcCoe Idealize.SL.Sem
open Idealize.ShloMosaic.ValueIdx Cert.KernelIdeal.HostMasks Cert.BitFloat

variable (m : (ℓ : Loc nD τ sig) → Buf (Elt Ideal) ℓ) (ρ : Dev nD → PrngReg)

/-- The three staged arrays in terms of the arguments: the input itself, and one minus each mask as a float. -/
theorem arrX_eq (c : Dev nD) : arrX m c = m ((c : Thread nD τ).loc main_arg0) := V_main_arg0 m c

theorem arrT_eq (c : Dev nD) : arrT m c = fun j => 1 - bit (timeMask m c j) := by
  funext j
  show (V m c main_v64 : Vec Ideal S32x2048 .f32) j = _
  rw [V_keepT]
  exact one_sub_mask_apply _ _ j

theorem arrA_eq (c : Dev nD) : arrA m c = fun j => 1 - bit (freqMask m c j) := by
  funext j
  show (V m c main_v67 : Vec Ideal S32x1280 .f32) j = _
  rw [V_keepF]
  exact one_sub_mask_apply _ _ j

/-- The result array is the masked spectrogram of the input and the two masks. -/
theorem final_masked (c : Dev nD) :
    (dats m 0 c).arrAt 3 cfg0.N
      = masked (m ((c : Thread nD τ).loc main_arg0)) (timeMask m c) (freqMask m c) := by
  rw [final, arrX_eq, arrT_eq, arrA_eq, maskedBy_one_sub]

/-- The kernel's run: it terminates with the result array at the masked spectrogram and the arguments unchanged. -/
theorem run : θ_run defs (onTc (τ := τ) (main (F := Ideal))) ⟨m, fun _ => 0, ρ⟩ fun r => ∀ c : Dev nD,
      r.2.mem ((c : Thread nD τ).loc main_v68)
        = masked (m ((c : Thread nD τ).loc main_arg0)) (timeMask m c) (freqMask m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_masked m c), (h c).2⟩)
    (Cert.KernelIdeal.Value.run_blocks m ρ)

end Cert.KernelIdeal.ResultArray

end
-- ==== Proof.lean ====
/-
  The certificate of the audio-only spectrogram masking kernel against its jnp reference.

  Both programs compute, by the same host operations, a one-bit time mask `[32, 2048]` and a one-bit frequency mask
  `[32, 1280]` from the lengths and four uniform draws. The reference multiplies the 1280 audio features of the input
  `[32, 2048, 1536]` by the float of `¬(time mask ∨ frequency mask)` and keeps the 256 video features. The kernel's
  program converts each mask to a float, subtracts it from one, and its region multiplies the audio features by the
  product of the two, block by block, copying the video features. On one-bit words `(1 - a)·(1 - b)` is the float
  of `¬(a ∨ b)`, so at the ideal instance the two results are one array; no finiteness is used.

  The three frames are the generated ones (the reference's is its run with the result dropped), and the ideal pass
  rewrote nothing, so the preservation claim is trivial.
-/
import proofs.«104250_j40853728920174_1_alg».proof.Defs
import proofs.«104250_j40853728920174_1_alg».proof.Proof.Gen.Kernel
import proofs.«104250_j40853728920174_1_alg».proof.Proof.Gen.Kernel.Skeleton
import proofs.«104250_j40853728920174_1_alg».proof.Proof.Gen.Kernel.Launch
import proofs.«104250_j40853728920174_1_alg».proof.Proof.Gen.Kernel.Points
import proofs.«104250_j40853728920174_1_alg».proof.Proof.Gen.Kernel.Frame
import proofs.«104250_j40853728920174_1_alg».proof.Proof.Gen.KernelIdeal
import proofs.«104250_j40853728920174_1_alg».proof.Proof.Gen.KernelIdeal.Skeleton
import proofs.«104250_j40853728920174_1_alg».proof.Proof.Gen.KernelIdeal.Launch
import proofs.«104250_j40853728920174_1_alg».proof.Proof.Gen.KernelIdeal.Points
import proofs.«104250_j40853728920174_1_alg».proof.Proof.Gen.KernelIdeal.Frame
import proofs.«104250_j40853728920174_1_alg».proof.Proof.Gen.ReferenceIdeal
import proofs.«104250_j40853728920174_1_alg».proof.Proof.Gen.Pre_finite_inputs
import proofs.«104250_j40853728920174_1_alg».proof.Proof.Gen.KernelIdeal.Value
import proofs.«104250_j40853728920174_1_alg».proof.Proof.RefRun
import proofs.«104250_j40853728920174_1_alg».proof.Proof.RefRead
import proofs.«104250_j40853728920174_1_alg».proof.Proof.RefMasked
import proofs.«104250_j40853728920174_1_alg».proof.Proof.KernelRun
import Idealize.ShloMosaic.Adequacy
import Idealize.ShloMosaic.Init

noncomputable section

namespace Cert.Proof

open Idealize.ShloMosaic Idealize.SL.Sem Cert.SpecAugment

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.PValue.run (F := Ideal) m ρ)

/-- Both runs end at the masked spectrogram of the input and of the two masks computed from the other arguments:
    the kernel's by its result array read block by block, the reference's by its last stage read at an index; the
    arguments agree, so the two arrays are one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => masked (m ((c.tc : Thread Cert.KernelIdeal.nD Cert.KernelIdeal.τ).loc Cert.KernelIdeal.main_arg0))
      (Cert.KernelIdeal.HostMasks.timeMask m c) (Cert.KernelIdeal.HostMasks.freqMask m c),
    Cert.KernelIdeal.ResultArray.run m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v72_eq, Cert.ReferenceIdeal.RefMasked.result_eq]
  obtain ⟨h0, h1, h2, h3, h4, h5⟩ := hagree c
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
